-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S2x8192x16 : Shape := ⟨3, ![2, 8192, 16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S2x8192x16 : S_.BroadcastsInDim S2x8192x16 (![] : Fin 0 → Fin S2x8192x16.rank)
  reducesTo_S2x8192x16_S_d0_1_2 : S2x8192x16.ReducesTo [0, 1, 2] S_

variable [Facts]

def fn {F : FTy → Type} [FloatOps F] (main_arg0 : FVec F S8192x8192 .f32) (main_arg1 : FVec F S2x8192x16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S2x8192x16 .f32 := Host.absf main_arg1
  let main_cst_0 : FVec F S_ .f32 := constant S_ .f32 0x7F800000#32
  let main_v5 : FVec F S2x8192x16 .f32 := broadcastInDim S2x8192x16 ![] bcast_S_S2x8192x16 main_cst_0
  let main_v6 : IVec S2x8192x16 1 := cmpf .olt main_v4 main_v5
  let main_c_1 : IVec S_ 1 := constantI S_ 1 1#1
  let main_v7 : IVec S_ 1 := (fun x v => Host.reduce IntOp.andi x v reducesTo_S2x8192x16_S_d0_1_2 h_S_) main_v6 main_c_1
  let main_v8 : IVec S_ 1 := andi main_v3 main_v7
  main_v8
-- ==== Kernel.lean ====
abbrev S8192x8192 : Shape := ⟨2, ![8192, 8192]⟩
abbrev S2x8192x16 : Shape := ⟨3, ![2, 8192, 16]⟩
abbrev S8192x32 : Shape := ⟨2, ![8192, 32]⟩
abbrev S256x8192 : Shape := ⟨2, ![256, 8192]⟩
abbrev S256x32 : Shape := ⟨2, ![256, 32]⟩
abbrev S1x8192x16 : Shape := ⟨3, ![1, 8192, 16]⟩
abbrev S8192x16 : Shape := ⟨2, ![8192, 16]⟩
abbrev S8192x2x16 : Shape := ⟨3, ![8192, 2, 16]⟩

abbrev nBuf : Space → Nat
  | .hbm => 5
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S2x8192x16, .f32⟩
  | .hbm, ⟨2, _⟩ => ⟨S8192x32, .f32⟩
  | .hbm, ⟨3, _⟩ => ⟨S8192x2x16, .f32⟩
  | .hbm, ⟨4, _⟩ => ⟨S2x8192x16, .f32⟩
  | .local _ .vmem, ⟨0, _⟩ => ⟨S256x8192, .f32⟩
  | .local _ .vmem, ⟨1, _⟩ => ⟨S256x8192, .f32⟩
  | .local _ .vmem, ⟨2, _⟩ => ⟨S2x8192x16, .f32⟩
  | .local _ .vmem, ⟨3, _⟩ => ⟨S256x32, .f32⟩
  | .local _ .vmem, ⟨4, _⟩ => ⟨S256x32, .f32⟩
  | .local _ .vmem, ⟨5, _⟩ => ⟨S8192x32, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x8192x16_S1x8192x16_0_0_0 : ∀ a, (![0, 0, 0] : Fin 3 → Nat) a + S1x8192x16.size a ≤ S2x8192x16.size a
  h_S1x8192x16 : 0 < S1x8192x16.numel
  shapeCasts_S1x8192x16_S8192x16 : S1x8192x16.ShapeCasts S8192x16
  inb_S8192x32_S8192x16_0_0 : ∀ a, (![0, 0] : Fin 2 → Nat) a + S8192x16.size a ≤ S8192x32.size a
  h_S8192x16 : 0 < S8192x16.numel
  shapeCasts_S8192x16_S8192x16 : S8192x16.ShapeCasts S8192x16
  inb_S2x8192x16_S1x8192x16_1_0_0 : ∀ a, (![1, 0, 0] : Fin 3 → Nat) a + S1x8192x16.size a ≤ S2x8192x16.size a
  inb_S8192x32_S8192x16_0_16 : ∀ a, (![0, 16] : Fin 2 → Nat) a + S8192x16.size a ≤ S8192x32.size a
  inb_S256x8192_S256x8192_0_0 : ∀ a, (![0, 0] : Fin 2 → Nat) a + S256x8192.size a ≤ S256x8192.size a
  h_S256x8192 : 0 < S256x8192.numel
  inb_S8192x32_S8192x32_0_0 : ∀ a, (![0, 0] : Fin 2 → Nat) a + S8192x32.size a ≤ S8192x32.size a
  h_S8192x32 : 0 < S8192x32.numel
  inb_S256x32_S256x32_0_0 : ∀ a, (![0, 0] : Fin 2 → Nat) a + S256x32.size a ≤ S256x32.size a
  h_S256x32 : 0 < S256x32.numel
  shapeCasts_S8192x32_S8192x2x16 : S8192x32.ShapeCasts S8192x2x16
  transposes_S8192x2x16_S2x8192x16_1_0_2 : S8192x2x16.Transposes [1, 0, 2] S2x8192x16
  dot_S256x8192_S8192x32_S256x32_1_0_0_1_n_n_wf : DotDims.WF S256x8192 S8192x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8192x16.size a ≤ S2x8192x16.size a
  hwx0_1 : ∀ i : grid0.Coords, EltTy.bits .f32 = 32 ∨ (Rect.block (s := S2x8192x16) S2x8192x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S8192x32.size a
  hwx0_2 : ∀ i : grid0.Coords, EltTy.bits .f32 = 32 ∨ (Rect.block (s := S8192x32) S256x32.size (cc0_transform_2 i) (hinb0_2 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S2x8192x16 : Shape := ⟨3, ![2, 8192, 16]⟩
abbrev S8192x2x16 : Shape := ⟨3, ![8192, 2, 16]⟩
abbrev S8192x32 : Shape := ⟨2, ![8192, 32]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2x8192x16, .f32⟩
  | .hbm, ⟨2, _⟩ => ⟨S8192x2x16, .f32⟩
  | .hbm, ⟨3, _⟩ => ⟨S8192x32, .f32⟩
  | .hbm, ⟨4, _⟩ => ⟨S8192x32, .f32⟩
  | .hbm, ⟨5, _⟩ => ⟨S8192x2x16, .f32⟩
  | .hbm, ⟨6, _⟩ => ⟨S2x8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  transposes_S2x8192x16_S8192x2x16_1_0_2 : S2x8192x16.Transposes [1, 0, 2] S8192x2x16
  shapeCasts_S8192x2x16_S8192x32 : S8192x2x16.ShapeCasts S8192x32
  shapeCasts_S8192x32_S8192x2x16 : S8192x32.ShapeCasts S8192x2x16
  transposes_S8192x2x16_S2x8192x16_1_0_2 : S8192x2x16.Transposes [1, 0, 2] S2x8192x16
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Spec.lean ====
/-
  The mathematics both programs compute, stated once over literal shapes.

  The batched right-hand side `b : [2, 8192, 16]` is laid out as one `[8192, 32]` matrix whose column
  `n` is feature `n % 16` of batch `n / 16`: `packed b (k, n) = b (n / 16, k, n % 16)`.
  The product is the plain matrix product of `a : [8192, 8192]` with that matrix over the extended reals,
  `product a b (r, n) = ∑ k, a (r, k) * b (n / 16, k, n % 16)`,
  and the result re-lays it as `[2, 8192, 16]` by a reshape and a transposition of the first two axes.
-/
import Idealize.ShloMosaic.PureOps.Ideal
import Idealize.ShloMosaic.Lib.ValueIdx

noncomputable section

namespace Cert.Spec

open Idealize.ShloMosaic Idealize.ShloMosaic.ValueIdx

abbrev SA : Shape := ⟨2, ![8192, 8192]⟩
abbrev SB : Shape := ⟨3, ![2, 8192, 16]⟩
abbrev SP : Shape := ⟨2, ![8192, 32]⟩
abbrev SR : Shape := ⟨3, ![8192, 2, 16]⟩

/-- Where entry `(k, n)` of the packed matrix sits in the batched array: batch `n / 16`, row `k`, feature `n % 16`. -/
abbrev packIdx (j : SP.Idx) : SB.Idx :=
  ix3 (⟨(j 1).val / 16, by have h : (j 1).val < 32 := (j 1).isLt; omega⟩ : Fin 2) (⟨(j 0).val, (j 0).isLt⟩ : Fin 8192)
    (⟨(j 1).val % 16, Nat.mod_lt _ (by decide)⟩ : Fin 16)

/-- The batched right-hand side with its two batches' feature columns side by side. -/
def packed {α : Type} (b : SB.Idx → α) : SP.Idx → α := fun j => b (packIdx j)

theorem packed_apply {α : Type} (b : SB.Idx → α) (j : SP.Idx) : packed b j = b (packIdx j) := rfl

/-- The matrix product with the packed right-hand side, entry by entry, over the extended reals. -/
def product (a : SA.Idx → EReal) (b : SB.Idx → EReal) : SP.Idx → EReal :=
  fun i => ∑ k : Fin 8192, a (ix2 (i 0) k) * packed b (ix2 k (i 1))

/-- The re-laying both programs end with: `[8192, 32]` read as `[8192, 2, 16]`, then the first two axes exchanged. -/
def relay {α : Type} (h1 : SP.ShapeCasts SR) (h2 : SR.Transposes [1, 0, 2] SB) (x : SP.Idx → α) : SB.Idx → α :=
  transpose SB [1, 0, 2] (shapeCast SR x h1) h2

end Cert.Spec

end
-- ==== Proof.Pieces.lean ====
/-
  What one run of the kernel body leaves, as values.

  At the grid's first point the body copies the two batches of the right-hand side into the scratch matrix, batch
  `j` into columns `16 j … 16 j + 15`: the two stored rectangles tile the scratch, and entry `(k, n)` of what they
  leave is `b (n / 16, k, n % 16)` — the packed matrix. At every point the output block is the matrix product of
  the point's row block with the whole scratch, accumulated into zero.
-/
import proofs.«131601_g83932250898621_cont_9to1_m_989_22_alg».proof.Proof.Gen.KernelIdeal.Frame
import proofs.«131601_g83932250898621_cont_9to1_m_989_22_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.ValueIdx

variable {F : FTy → Type} [FloatOps F]

theorem zero2 : (![0, 0] : Fin 2 → Nat) = fun _ => 0 := funext fun a => by fin_cases a <;> rfl

/-- A `[1, 8192, 16]` slab viewed as `[8192, 16]` reads `(0, k, f)` at `(k, f)`. -/
theorem slab_apply (v : Vec F S1x8192x16 .f32) (h : S1x8192x16.ShapeCasts S8192x16) (h' : S8192x16.ShapeCasts S8192x16)
    (j : S8192x16.Idx) :
    shapeCast S8192x16 (shapeCast S8192x16 v h) h' j = v (ix3 (0 : Fin 1) (j 0) (j 1)) := by
  rw [shapeCast_self]
  refine shapeCast_apply v h j _ ?_
  rw [Shape.rowMajor_val_three, Shape.rowMajor_val_two]
  show (0 * 8192 + (j 0).val) * 16 + (j 1).val = (j 0).val * 16 + (j 1).val
  omega

theorem pay1_apply (v : Vec F S1x8192x16 .f32) (j : S8192x16.Idx) : k0_pay1 v j = v (ix3 (0 : Fin 1) (j 0) (j 1)) :=
  slab_apply v _ _ j

theorem pay2_apply (v : Vec F S1x8192x16 .f32) (j : S8192x16.Idx) : k0_pay2 v j = v (ix3 (0 : Fin 1) (j 0) (j 1)) :=
  slab_apply v _ _ j

/-- The two column halves the first point stores, read as one matrix, are the packed right-hand side. -/
theorem scratch_canon (c : Dev nD) (i : grid0.Coords) (a1 : Memref sig .tc .vmem S256x8192 .f32) (h1 : a1.IsWhole)
    (a2 : Memref sig .tc .vmem S2x8192x16 .f32) (h2 : a2.IsWhole) (a3 : Memref sig .tc .vmem S256x32 .f32) (h3 : a3.IsWhole)
    (a4 : Memref sig .tc .vmem S8192x32 .f32) (h4 : a4.IsWhole) (hc : cond0_0 i)
    (x0 : Vec F S256x8192 .f32) (x1 : Vec F S2x8192x16 .f32) :
    View.canon (kernelRun0_A c i a1 h1 a2 h2 a3 h3 a4 h4 hc x0 x1).2.1 = Cert.Spec.packed x1 := by
  funext y
  refine View.canon_apply_of_pieces (Cert.Spec.packed x1) _ ?_ y (scover0_A_0 c i a1 h1 a2 h2 a3 h3 a4 h4 hc x0 x1 y)
  unfold kernelRun0_A
  dsimp only
  sl_unfold_words
  intro p hp
  simp only [List.mem_cons, List.mem_nil_iff, or_false] at hp
  rcases hp with rfl | rfl
  · intro x
    dsimp only
    rw [pay2_apply, View.readAt_eq_ld, h2.read_unread, Cert.Spec.packed_apply]
    refine congrArg x1 (funext fun a => Fin.ext ?_)
    have hx1 : (x 1).val < 16 := (x 1).isLt
    match a with
    | ⟨0, _⟩ => show 1 + 1 * 0 = (16 + 1 * (x 1).val) / 16; omega
    | ⟨1, _⟩ => show 0 + 1 * (x 0).val = 0 + 1 * (x 0).val; rfl
    | ⟨2, _⟩ => show 0 + 1 * (x 1).val = (16 + 1 * (x 1).val) % 16; omega
  · intro x
    dsimp only
    rw [pay1_apply, View.readAt_eq_ld, h2.read_unread, Cert.Spec.packed_apply]
    refine congrArg x1 (funext fun a => Fin.ext ?_)
    have hx1 : (x 1).val < 16 := (x 1).isLt
    match a with
    | ⟨0, _⟩ => show 0 + 1 * 0 = (0 + 1 * (x 1).val) / 16; omega
    | ⟨1, _⟩ => show 0 + 1 * (x 0).val = 0 + 1 * (x 0).val; rfl
    | ⟨2, _⟩ => show 0 + 1 * (x 1).val = (0 + 1 * (x 1).val) % 16; omega

/-- The first point leaves the packed right-hand side in the scratch. -/
theorem sout_A (c : Dev nD) (i : grid0.Coords) (a1 : Memref sig .tc .vmem S256x8192 .f32) (h1 : a1.IsWhole)
    (a2 : Memref sig .tc .vmem S2x8192x16 .f32) (h2 : a2.IsWhole) (a3 : Memref sig .tc .vmem S256x32 .f32) (h3 : a3.IsWhole)
    (a4 : Memref sig .tc .vmem S8192x32 .f32) (h4 : a4.IsWhole) (hc : cond0_0 i)
    (x0 : Vec F S256x8192 .f32) (x1 : Vec F S2x8192x16 .f32) :
    sout0_A_0 c i a1 h1 a2 h2 a3 h3 a4 h4 hc x0 x1 = Cert.Spec.packed x1 := by
  unfold sout0_A_0
  rw [View.read_writes_eq_canon _ _ _ (scover0_A_0 c i a1 h1 a2 h2 a3 h3 a4 h4 hc x0 x1)]
  exact scratch_canon c i a1 h1 a2 h2 a3 h3 a4 h4 hc x0 x1

/-- The first point's output block: the scratch is read back whole after the two stores, so the block is the product
    of the point's row block with the packed right-hand side. -/
theorem out_A (c : Dev nD) (i : grid0.Coords) (a1 : Memref sig .tc .vmem S256x8192 .f32) (h1 : a1.IsWhole)
    (a2 : Memref sig .tc .vmem S2x8192x16 .f32) (h2 : a2.IsWhole) (a3 : Memref sig .tc .vmem S256x32 .f32) (h3 : a3.IsWhole)
    (a4 : Memref sig .tc .vmem S8192x32 .f32) (h4 : a4.IsWhole) (hc : cond0_0 i)
    (x0 : Vec F S256x8192 .f32) (x1 : Vec F S2x8192x16 .f32) :
    out0_A_2 c i a1 h1 a2 h2 a3 h3 a4 h4 hc x0 x1 = k0_pay3 x0 (Cert.Spec.packed x1) := by
  unfold out0_A_2
  rw [View.read_writes_eq_canon _ _ _ (cover0_A_2 c i a1 h1 a2 h2 a3 h3 a4 h4 hc x0 x1)]
  have hs := scratch_canon c i a1 h1 a2 h2 a3 h3 a4 h4 hc x0 x1
  revert hs
  unfold kernelRun0_A
  dsimp only
  sl_unfold_words
  intro hs
  rw [View.canon_unit_zero zero2, View.readCov_eq_canon', hs]
  refine congrArg₂ k0_pay3 ?_ ?_
  · rw [View.readAt_eq_ld, h1.read_unread]
    exact View.ld_unit_zero (S := S256x8192) zero2 _ x0
  · exact View.ld_unit_zero (S := S8192x32) zero2 _ (Cert.Spec.packed x1)

/-- A later point's output block: the product of the point's row block with the scratch as the point before left it. -/
theorem out_B (c : Dev nD) (i : grid0.Coords) (a1 : Memref sig .tc .vmem S256x8192 .f32) (h1 : a1.IsWhole)
    (a2 : Memref sig .tc .vmem S2x8192x16 .f32) (h2 : a2.IsWhole) (a3 : Memref sig .tc .vmem S256x32 .f32) (h3 : a3.IsWhole)
    (a4 : Memref sig .tc .vmem S8192x32 .f32) (h4 : a4.IsWhole) (hc : ¬cond0_0 i)
    (x0 : Vec F S256x8192 .f32) (x1 : Vec F S2x8192x16 .f32) (xs : Vec F S8192x32 .f32) :
    out0_B_2 c i a1 h1 a2 h2 a3 h3 a4 h4 hc x0 x1 xs = k0_pay3 x0 xs := by
  unfold out0_B_2
  rw [View.read_writes_eq_canon _ _ _ (cover0_B_2 c i a1 h1 a2 h2 a3 h3 a4 h4 hc x0 x1 xs)]
  unfold kernelRun0_B
  dsimp only
  sl_unfold_words
  rw [View.canon_unit_zero zero2]
  simp only [View.readAt_eq_ld, h1.read_unread, h4.read_unread, View.ld_unit_zero (S := S256x8192) zero2,
    View.ld_unit_zero (S := S8192x32) zero2]

end Cert.KernelIdeal.Pieces

end
-- ==== Proof.Blocks.lean ====
/-
  From one run of the body to the whole output array.

  The scratch is filled at the first grid point and only read afterwards, so after every point it holds the packed
  right-hand side, and the output block of point `t` is the product of rows `256 t … 256 t + 255` of the left operand
  with it (induction on the point). Entry `(p, q)` of that block is `∑ k, a (256 t + p, k) * packed b (k, q)`, which is
  entry `(256 t + p, q)` of the whole product: each block is the restriction of ONE matrix, the 32 row blocks tile the
  output, and so the output array ends at the product.
-/
import proofs.«131601_g83932250898621_cont_9to1_m_989_22_alg».proof.Proof.Pieces
import Idealize.ShloMosaic.PureOps.Ideal.Laws

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Idealize.ShloMosaic.ValueIdx

variable {F : FTy → Type} [FloatOps F]
variable (m : (ℓ : Loc nD τ sig) → Buf (Elt F) ℓ)

/-- The printed index maps over the grid: the left operand's and the output's row-block index is the point, every
    other block index is zero. -/
theorem idx_facts : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 3) = 0 ∧ win0_1.index t (1 : Fin 3) = 0 ∧ win0_1.index t (2 : Fin 3) = 0 :=
  (by decide +kernel : ∀ t : Fin grid0.N, _)

/-- The right-hand side's one block is the whole array, at every point. -/
theorem rhs_block (c : Dev nD) (t : Fin cfg0.N) : (iblk m c 1 t : Vec F S2x8192x16 .f32) = V m c main_arg1 := by
  obtain ⟨-, -, -, -, e0, e1, e2⟩ := idx_facts t
  funext j
  unfold iblk
  rw [View.read_apply]
  show V m c main_arg1 _ = V m c main_arg1 j
  refine congrArg (V m c main_arg1) (funext fun a => Fin.ext ?_)
  match a with
  | ⟨0, _⟩ => show win0_1.index t (0 : Fin 3) * 2 + 1 * (j 0).val = (j 0).val; omega
  | ⟨1, _⟩ => show win0_1.index t (1 : Fin 3) * 8192 + 1 * (j 1).val = (j 1).val; omega
  | ⟨2, _⟩ => show win0_1.index t (2 : Fin 3) * 16 + 1 * (j 2).val = (j 2).val; omega

/-- After every point: the output's staging buffer holds the product of the point's row block with the packed
    right-hand side, and the scratch holds the packed right-hand side. -/
theorem outsAt_eq (c : Dev nD) : ∀ (n : ℕ) (h : n < cfg0.N),
    outsAt0 m c n h = (k0_pay3 (iblk m c 0 ⟨n, h⟩) (Cert.Spec.packed (V m c main_arg1)), Cert.Spec.packed (V m c main_arg1))
  | 0, h => by
    rw [outsAt0_A m c ⟨0, h⟩ rfl, out_A, sout_A, rhs_block]
  | n + 1, h => by
    have hN : cfg0.N = 32 := N_0
    have hB : ¬(⟨n + 1, h⟩ : Fin cfg0.N).val % 32 = 0 := by dsimp only; omega
    rw [outsAt0_B m c ⟨n + 1, h⟩ hB, out_B]
    unfold sout0_B_0
    show (k0_pay3 _ (outsAt0 m c n _).2, (outsAt0 m c n _).2) = _
    rw [outsAt_eq c n]

end Cert.KernelIdeal.Blocks

end
-- ==== Proof.Whole.lean ====
/-
  The output array after the run, over the extended reals.

  An entry of the body's matrix product into a zero accumulator is the plain sum over the contracted axis,
  `∑ k, x (p, k) * s (k, q)`. With the row block of point `t` read off the left operand at rows `256 t + p` and the
  scratch at the packed right-hand side, block `t` of the output is rows `256 t … 256 t + 255` of the specification's
  product; row `r` lies in the block of point `r / 256`, so the blocks cover the array and it ends at the product.
-/
import proofs.«131601_g83932250898621_cont_9to1_m_989_22_alg».proof.Proof.Blocks

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Pieces Cert.KernelIdeal.Blocks Idealize.ShloMosaic.ValueIdx

/-! ## One entry of the body's matrix product -/

theorem lhs_axis0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide), dif_pos (show (0 : Fin S256x8192.rank) ∈ dot_S256x8192_S8192x32_S256x32_1_0_0_1_n_n.lhsNonContracting by decide)]
  rfl
theorem lhs_axis1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
theorem rhs_axis0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
theorem rhs_axis1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide), dif_pos (show (1 : Fin S8192x32.rank) ∈ dot_S256x8192_S8192x32_S256x32_1_0_0_1_n_n.rhsNonContracting by decide)]
  rfl

/-- Entry `(p, q)` of the product of a `[256, 8192]` block with a `[8192, 32]` matrix into zero: the sum over `k`. -/
theorem block_product_apply (x : Vec Ideal S256x8192 .f32) (s : Vec Ideal S8192x32 .f32) (i : S256x32.Idx) :
    k0_pay3 (F := Ideal) x s i = ∑ k : Fin 8192, x (ix2 (i 0) k) * s (ix2 k (i 1)) := by
  unfold k0_pay3
  simp only [matmul]
  rw [Ideal.matmul_constant_zero_apply, ← Equiv.sum_comp (ValueIdx.contrEquiv1 dot_S256x8192_S8192x32_S256x32_1_0_0_1_n_n 8192 rfl rfl).symm]
  refine Finset.sum_congr rfl fun k _ => ?_
  have hk := ValueIdx.contrEquiv1_symm_val dot_S256x8192_S8192x32_S256x32_1_0_0_1_n_n 8192 rfl rfl k
  have el : dot_S256x8192_S8192x32_S256x32_1_0_0_1_n_n.lhsIdx i ((ValueIdx.contrEquiv1 dot_S256x8192_S8192x32_S256x32_1_0_0_1_n_n 8192 rfl rfl).symm k) = ix2 (i 0) k := funext fun a => Fin.ext (by
    match a with
    | ⟨0, _⟩ => exact lhs_axis0 _ _
    | ⟨1, _⟩ => exact (lhs_axis1 _ _).trans hk)
  have er : dot_S256x8192_S8192x32_S256x32_1_0_0_1_n_n.rhsIdx i ((ValueIdx.contrEquiv1 dot_S256x8192_S8192x32_S256x32_1_0_0_1_n_n 8192 rfl rfl).symm k) = ix2 k (i 1) := funext fun a => Fin.ext (by
    match a with
    | ⟨0, _⟩ => exact (rhs_axis0 _ _).trans hk
    | ⟨1, _⟩ => exact rhs_axis1 _ _)
  rw [el, er]
  rfl

/-! ## Blocks of the product -/

variable (m : (ℓ : Loc nD τ sig) → Buf (Elt Ideal) ℓ) (ρ : Dev nD → PrngReg)

/-- The specification's product of the two argument arrays as the region finds them. -/
abbrev prod (c : Dev nD) : Cert.Spec.SP.Idx → EReal := Cert.Spec.product (V m c main_arg0) (V m c main_arg1)

/-- What point `t` writes back is block `t` of the product. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2, outsAt_eq]
  dsimp only
  obtain ⟨e0, e1, e2, e3, -, -, -⟩ := idx_facts t
  funext j
  show k0_pay3 (F := Ideal) (iblk m c 0 t) (Cert.Spec.packed (V m c main_arg1)) j
    = Cert.Spec.product (V m c main_arg0) (V m c main_arg1) (((cfg0.win 2).blk t).view.emb j)
  rw [block_product_apply]
  unfold Cert.Spec.product
  refine Finset.sum_congr rfl fun k _ => ?_
  have hj0 : (j 0).val < 256 := (j 0).isLt
  have hj1 : (j 1).val < 32 := (j 1).isLt
  have hl : (iblk m c 0 t : Vec Ideal S256x8192 .f32) (ix2 (j 0) k)
      = V m c main_arg0 (ix2 ((((cfg0.win 2).blk t).view.emb j) 0) k) := by
    unfold iblk
    rw [View.read_apply]
    show V m c main_arg0 _ = V m c main_arg0 _
    refine congrArg (V m c main_arg0) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * k.val = k.val; omega
  have hr : (ix2 k (j 1) : Cert.Spec.SP.Idx) = ix2 k ((((cfg0.win 2).blk t).view.emb j) 1) := by
    refine funext fun a => Fin.ext ?_
    match a with
    | ⟨0, _⟩ => rfl
    | ⟨1, _⟩ => show (j 1).val = win0_2.index t (1 : Fin 2) * 32 + 1 * (j 1).val; omega
  rw [hl, hr]
  rfl

/-- An index of the output array is in point `t`'s block iff each coordinate is in the block's range. -/
theorem mem_block (t : Fin cfg0.N) (i : S8192x32.Idx) :
    i ∈ ((cfg0.win 2).blk t).view.set ↔ ∀ a : Fin 2, win0_2.index t a * S256x32.size a ≤ (i a).val ∧ (i a).val < win0_2.index t a * S256x32.size a + S256x32.size a := by
  show i ∈ ((View.whole main_v0).slice (win0_2.rect t)).set ↔ _
  rw [View.set_slice_whole, Rect.mem_set_unit]
  exact Iff.rfl

/-- The output array ends at the product: row `r` is in the block of point `r / 256`. -/
theorem final (c : Dev nD) : (dats m 0 c).arrAt 2 cfg0.N = prod m c :=
  (dats m 0 c).arrAt_eq_of_cover 2 (prod m c) (fun t _ => flushed_eq m c t) fun i => by
    have hN : cfg0.N = 32 := N_0
    have hi0 : (i 0).val < 8192 := (i 0).isLt
    have hi1 : (i 1).val < 32 := (i 1).isLt
    let t : Fin cfg0.N := ⟨(i 0).val / 256, by omega⟩
    obtain ⟨-, -, e2, e3, -, -, -⟩ := idx_facts t
    have et : t.val = (i 0).val / 256 := rfl
    refine ⟨t, flush0_2 t, ?_⟩
    rw [mem_block]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 32 ≤ (i 1).val ∧ (i 1).val < win0_2.index t (1 : Fin 2) * 32 + 32; omega

end Cert.KernelIdeal.Whole

end
-- ==== Proof.RefSide.lean ====
/-
  The reference's matrix product is the specification's product.

  The reference transposes the batched right-hand side to `[8192, 2, 16]`, reshapes it to `[8192, 32]` and multiplies:
  entry `(k, n)` of that matrix is row-major position `32 k + n` of `[8192, 2, 16]`, that is `(k, n / 16, n % 16)`,
  which the transposition reads at `(n / 16, k, n % 16)` of the argument: the packed matrix. Its product with the
  left operand is, entry by entry over the extended reals, the same sum over the contracted axis.
-/
import proofs.«131601_g83932250898621_cont_9to1_m_989_22_alg».proof.Proof.Gen.ReferenceIdeal.Read
import proofs.«131601_g83932250898621_cont_9to1_m_989_22_alg».proof.Proof.Spec

noncomputable section

namespace Cert.RefSide

open Cert.ReferenceIdeal Cert.ReferenceIdeal.Gen Cert.ReferenceIdeal.Read
open Idealize.ShloMosaic Idealize.ShloMosaic.ValueIdx

/-- The reference's reshaped transpose of the batched operand is the packed matrix. -/
theorem packed_eq (x1 : Cert.Spec.SB.Idx → EReal) : val_main_v1 (F := Ideal) x1 = Cert.Spec.packed x1 := by
  funext j
  rw [val_main_v1_apply, val_main_v0_apply, Cert.Spec.packed_apply]
  refine congrArg x1 (funext fun a => Fin.ext ?_)
  have h0 : (j 0).val < 8192 := (j 0).isLt
  have h1 : (j 1).val < 32 := (j 1).isLt
  match a with
  | ⟨0, _⟩ => show ((j 0).val * 32 + (j 1).val) / 16 % 2 = (j 1).val / 16; omega
  | ⟨1, _⟩ => show ((j 0).val * 32 + (j 1).val) / 32 = (j 0).val; omega
  | ⟨2, _⟩ => show ((j 0).val * 32 + (j 1).val) % 16 = (j 1).val % 16; omega

/-- The reference's `dot_general` is the specification's product of the two arguments. -/
theorem product_eq (x0 : Cert.Spec.SA.Idx → EReal) (x1 : Cert.Spec.SB.Idx → EReal) :
    val_main_v2 (F := Ideal) x0 x1 = Cert.Spec.product x0 x1 := by
  funext i
  rw [val_main_v2_apply, packed_eq]
  unfold Cert.Spec.product
  refine Finset.sum_congr rfl fun k _ => ?_
  have el : lidx_main_v2 i k = ix2 (i 0) k := funext fun a => Fin.ext (by match a with | ⟨0, _⟩ => rfl | ⟨1, _⟩ => rfl)
  have er : ridx_main_v2 i k = ix2 k (i 1) := funext fun a => Fin.ext (by match a with | ⟨0, _⟩ => rfl | ⟨1, _⟩ => rfl)
  rw [el, er, Cert.Spec.packed_apply]
  rfl

/-- So the reference's result is the re-laid product. -/
theorem result_eq (x0 : Cert.Spec.SA.Idx → EReal) (x1 : Cert.Spec.SB.Idx → EReal) :
    val_main_v4 (F := Ideal) x0 x1
      = Cert.Spec.relay shapeCasts_S8192x32_S8192x2x16 transposes_S8192x2x16_S2x8192x16_1_0_2 (Cert.Spec.product x0 x1) := by
  rw [← product_eq]
  rfl

end Cert.RefSide

end
-- ==== Proof.lean ====
/-
  Equivalence of a row-tiled matrix product with packed batches against its plain reference.

  Both programs compute `out (b, r, f) = ∑ k, a (r, k) * v (b, k, f)` for `a : [8192, 8192]`, `v : [2, 8192, 16]`.
  The kernel walks 32 row blocks of `a`; at the first block it lays the two batches of `v` side by side in a scratch
  matrix `[8192, 32]` (column `n` is feature `n % 16` of batch `n / 16`), and every block multiplies its rows with that
  matrix; the `[8192, 32]` product is then read as `[8192, 2, 16]` and its first two axes are exchanged. The reference
  forms the same packed matrix by a transposition and a reshape, multiplies once, and re-lays the product the same
  way. Over the extended reals both matrix products are, entry by entry, the same sum over `k` (Proof/Spec.lean's
  `product`), with no rearrangement of terms, so no finiteness of the inputs is needed; the re-laying is one
  function applied to equal matrices.
  The ideal pass rewrote nothing, so the idealization claim is trivial; the three frames are the generated ones (the
  reference's from its run).
-/
import proofs.«131601_g83932250898621_cont_9to1_m_989_22_alg».proof.Defs
import proofs.«131601_g83932250898621_cont_9to1_m_989_22_alg».proof.Proof.Gen.Kernel
import proofs.«131601_g83932250898621_cont_9to1_m_989_22_alg».proof.Proof.Gen.Kernel.Skeleton
import proofs.«131601_g83932250898621_cont_9to1_m_989_22_alg».proof.Proof.Gen.Kernel.Launch
import proofs.«131601_g83932250898621_cont_9to1_m_989_22_alg».proof.Proof.Gen.Kernel.Points
import proofs.«131601_g83932250898621_cont_9to1_m_989_22_alg».proof.Proof.Gen.Kernel.Frame
import proofs.«131601_g83932250898621_cont_9to1_m_989_22_alg».proof.Proof.Gen.KernelIdeal
import proofs.«131601_g83932250898621_cont_9to1_m_989_22_alg».proof.Proof.Gen.KernelIdeal.Skeleton
import proofs.«131601_g83932250898621_cont_9to1_m_989_22_alg».proof.Proof.Gen.KernelIdeal.Launch
import proofs.«131601_g83932250898621_cont_9to1_m_989_22_alg».proof.Proof.Gen.KernelIdeal.Points
import proofs.«131601_g83932250898621_cont_9to1_m_989_22_alg».proof.Proof.Gen.KernelIdeal.Frame
import proofs.«131601_g83932250898621_cont_9to1_m_989_22_alg».proof.Proof.Gen.ReferenceIdeal
import proofs.«131601_g83932250898621_cont_9to1_m_989_22_alg».proof.Proof.Gen.ReferenceIdeal.Run
import proofs.«131601_g83932250898621_cont_9to1_m_989_22_alg».proof.Proof.Gen.ReferenceIdeal.Read
import proofs.«131601_g83932250898621_cont_9to1_m_989_22_alg».proof.Proof.Gen.Pre_finite_inputs
import proofs.«131601_g83932250898621_cont_9to1_m_989_22_alg».proof.Proof.Whole
import proofs.«131601_g83932250898621_cont_9to1_m_989_22_alg».proof.Proof.RefSide
import Idealize.ShloMosaic.Lib.StableHlo.Run
import Idealize.ShloMosaic.Adequacy
import Idealize.ShloMosaic.Init

noncomputable section

open Idealize.ShloMosaic Idealize.ShloMosaic.TcCoe Idealize.SL.Sem
open Idealize.ShloMosaic.Pipeline (Dat)

/-! ## The kernel's result: the product, re-laid by the two host operations after the region -/

namespace Cert.KernelIdeal.Result

open Cert.KernelIdeal Cert.KernelIdeal.Gen

variable (m : (ℓ : Loc nD τ sig) → Buf (Elt Ideal) ℓ) (ρ : Dev nD → PrngReg)

/-- The program's result in terms of the argument arrays. -/
abbrev result (c : Dev nD) : Cert.Spec.SB.Idx → EReal :=
  Cert.Spec.relay shapeCasts_S8192x32_S8192x2x16 transposes_S8192x2x16_S2x8192x16_1_0_2
    (Cert.Spec.product (m ((c.tc : Thread nD τ).loc main_arg0)) (m ((c.tc : Thread nD τ).loc main_arg1)))

/-- After the reshape and the transposition that follow the region, the result buffer holds the re-laid product. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v0)
      = Cert.Spec.product (m ((c.tc : Thread nD τ).loc main_arg0)) (m ((c.tc : Thread nD τ).loc main_arg1)) :=
    (Pipeline.withArrays_arr spec0 launch0.win.arr_inj c _ _ 2).trans (Cert.KernelIdeal.Whole.final m c)
  rw [hw]
  rfl

/-- The run, read: the result buffer at the re-laid product, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

namespace Cert.Proof

open Idealize.ShloMosaic Idealize.SL.Sem Cert.Kernel

/-- From memories that agree on the arguments the kernel's result buffer ends at the re-laid product of its
    arguments and the reference's at the re-laid product of the same arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefSide.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
